-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S128x128 : Shape := ⟨2, ![128, 128]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8x4096x4096 .f32) (main_arg1 : FVec F S128x128 .f32) (main_arg2 : FVec F S128x128 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S8x4096x4096 : Shape := ⟨3, ![8, 4096, 4096]⟩
abbrev S128x128 : Shape := ⟨2, ![128, 128]⟩
abbrev S32768x4096 : Shape := ⟨2, ![32768, 4096]⟩
abbrev S128x4096 : Shape := ⟨2, ![128, 4096]⟩
abbrev S128x32x128 : Shape := ⟨3, ![128, 32, 128]⟩
abbrev S4096x128 : Shape := ⟨2, ![4096, 128]⟩
abbrev S128x32x32x4 : Shape := ⟨4, ![128, 32, 32, 4]⟩
abbrev S128x32x4x32 : Shape := ⟨4, ![128, 32, 4, 32]⟩

abbrev nBuf : Space → Nat
  | .hbm => 6
  | .vmem => 6
  | .smem => 0
  | _ => 0

abbrev bufTy : (tb : Table) → Fin (tcTables nBuf tb) → BufTy
  | .hbm, ⟨0, _⟩ => ⟨S8x4096x4096, .f32⟩
  | .hbm, ⟨1, _⟩ => ⟨S128x128, .f32⟩
  | .hbm, ⟨2, _⟩ => ⟨S128x128, .f32⟩
  | .hbm, ⟨3, _⟩ => ⟨S32768x4096, .f32⟩
  | .hbm, ⟨4, _⟩ => ⟨S32768x4096, .f32⟩
  | .hbm, ⟨5, _⟩ => ⟨S8x4096x4096, .f32⟩
  | .local _ .vmem, ⟨0, _⟩ => ⟨S128x4096, .f32⟩
  | .local _ .vmem, ⟨1, _⟩ => ⟨S128x4096, .f32⟩
  | .local _ .vmem, ⟨2, _⟩ => ⟨S128x128, .f32⟩
  | .local _ .vmem, ⟨3, _⟩ => ⟨S128x128, .f32⟩
  | .local _ .vmem, ⟨4, _⟩ => ⟨S128x4096, .f32⟩
  | .local _ .vmem, ⟨5, _⟩ => ⟨S128x4096, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x4096_S32768x4096 : S8x4096x4096.ShapeCasts S32768x4096
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S128x4096_S128x32x128 : S128x4096.ShapeCasts S128x32x128
  shapeCasts_S128x32x128_S4096x128 : S128x32x128.ShapeCasts S4096x128
  shapeCasts_S4096x128_S128x32x128 : S4096x128.ShapeCasts S128x32x128
  shapeCasts_S128x32x128_S128x32x32x4 : S128x32x128.ShapeCasts S128x32x32x4
  transposes_S128x32x32x4_p0_2_3_1_S128x32x4x32 : S128x32x32x4.Transposes [0, 2, 3, 1] S128x32x4x32
  shapeCasts_S128x32x4x32_S128x32x128 : S128x32x4x32.ShapeCasts S128x32x128
  shapeCasts_S128x32x128_S128x4096 : S128x32x128.ShapeCasts S128x4096
  shapeCasts_S32768x4096_S8x4096x4096 : S32768x4096.ShapeCasts S8x4096x4096
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S32768x4096.size a
  hwx0_0 : ∀ i : grid0.Coords, EltTy.bits .f32 = 32 ∨ (Rect.block (s := S32768x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S32768x4096.size a
  hwx0_3 : ∀ i : grid0.Coords, EltTy.bits .f32 = 32 ∨ (Rect.block (s := S32768x4096) S128x4096.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x4096 : Shape := ⟨3, ![8, 4096, 4096]⟩
abbrev S128x128 : Shape := ⟨2, ![128, 128]⟩
abbrev S32768x32x128 : Shape := ⟨3, ![32768, 32, 128]⟩
abbrev S32768x128x32 : Shape := ⟨3, ![32768, 128, 32]⟩

abbrev nBuf : Space → Nat
  | .hbm => 11
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S128x128, .f32⟩
  | .hbm, ⟨2, _⟩ => ⟨S128x128, .f32⟩
  | .hbm, ⟨3, _⟩ => ⟨S32768x32x128, .f32⟩
  | .hbm, ⟨4, _⟩ => ⟨S32768x32x128, .f32⟩
  | .hbm, ⟨5, _⟩ => ⟨S32768x128x32, .f32⟩
  | .hbm, ⟨6, _⟩ => ⟨S32768x32x128, .f32⟩
  | .hbm, ⟨7, _⟩ => ⟨S32768x32x128, .f32⟩
  | .hbm, ⟨8, _⟩ => ⟨S32768x128x32, .f32⟩
  | .hbm, ⟨9, _⟩ => ⟨S32768x32x128, .f32⟩
  | .hbm, ⟨10, _⟩ => ⟨S8x4096x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S8x4096x4096_S32768x32x128 : S8x4096x4096.ShapeCasts S32768x32x128
  transposes_S32768x32x128_S32768x128x32_0_2_1 : S32768x32x128.Transposes [0, 2, 1] S32768x128x32
  shapeCasts_S32768x128x32_S32768x32x128 : S32768x128x32.ShapeCasts S32768x32x128
  shapeCasts_S32768x32x128_S8x4096x4096 : S32768x32x128.ShapeCasts S8x4096x4096
  dot_S32768x32x128_S128x128_S32768x32x128_2_0_01_1_n_n_wf : DotDims.WF S32768x32x128 S128x128 S32768x32x128 [2] [0] [0, 1] [1] [] []

variable [Facts₀]

def dot_S32768x32x128_S128x128_S32768x32x128_2_0_01_1_n_n : DotDims S32768x32x128 S128x128 S32768x32x128 where
  lhsContracting := [2]
  rhsContracting := [0]
  lhsNonContracting := [0, 1]
  rhsNonContracting := [1]
  lhsBatch := []
  rhsBatch := []
  wf := dot_S32768x32x128_S128x128_S32768x32x128_2_0_01_1_n_n_wf

class Facts : Prop extends Facts₀ where

variable [Facts]
-- ==== Proof.Spec.lean ====
/-
  What both programs compute, one token at a time. A token's 4096 features are 32 groups of 128. One stage multiplies
  every group by a 128 × 128 weight and then interleaves the products: entry `k` of output group `b` is entry
  `4 b + k / 32` of the product of input group `k % 32`. (Writing the 32 × 128 table of products down column by column
  and cutting that list into rows of 128 puts, at row `b` and place `k`, the list's entry `128 b + k`, which is column
  `(128 b + k) / 32 = 4 b + k / 32` of row `(128 b + k) % 32 = k % 32`; regrouping each product's 128 entries as
  32 × 4 and moving the group's own index behind is the same rearrangement.) The result is two stages in a row, with two
  weights, on every token by itself: how many tokens sit in an array, and how the token axis is folded, does not enter.
-/
import Idealize.ShloMosaic.PureOps.Ideal
import Idealize.ShloMosaic.Lib.ValueIdx
import Idealize.ShloMosaic.Lib.Pipeline.Value

noncomputable section

open scoped BigOperators

namespace Cert.Interleave

open Idealize.ShloMosaic Idealize.ShloMosaic.ValueIdx

/-- One stage on one token, given as 32 groups of 128: entry `k` of output group `b` is the product of input group
    `k % 32` with column `4 b + k / 32` of the weight. -/
def stage (X : Fin 32 → Fin 128 → EReal) (w : Fin 128 → Fin 128 → EReal) (b : Fin 32) (k : Fin 128) : EReal :=
  ∑ j : Fin 128, X ⟨k.val % 32, Nat.mod_lt _ (by decide)⟩ j
    * w j ⟨b.val * 4 + k.val / 32, by have := b.isLt; have := k.isLt; omega⟩

/-- A 128 × 128 weight array as a table. -/
def mat (w : (⟨2, ![128, 128]⟩ : Shape).Idx → EReal) (j c : Fin 128) : EReal := w (ix2 j c)

/-- Row `z` of an `R × 4096` array as 32 groups of 128. -/
def groups {R : ℕ} (X : (⟨2, ![R, 4096]⟩ : Shape).Idx → EReal) (z : Fin R) (b : Fin 32) (j : Fin 128) : EReal :=
  X (ix2 z ⟨b.val * 128 + j.val, by have := b.isLt; have := j.isLt; omega⟩)

/-- Both stages on every row of an `R × 4096` array: column `n` of a row is place `n % 128` of group `n / 128`. -/
def mixRows {R : ℕ} (X : (⟨2, ![R, 4096]⟩ : Shape).Idx → EReal) (w1 w2 : (⟨2, ![128, 128]⟩ : Shape).Idx → EReal) :
    (⟨2, ![R, 4096]⟩ : Shape).Idx → EReal := fun i =>
  stage (stage (groups X ⟨(i 0).val, idx2_lt0 i⟩) (mat w1)) (mat w2)
    ⟨(i 1).val / 128, by have := idx2_lt1 i; omega⟩ ⟨(i 1).val % 128, Nat.mod_lt _ (by decide)⟩

/-- A row of the result depends on that row of the array only: two arrays, of any heights, that agree along a row of each
    give the same result along it. -/
theorem mixRows_congr {R R' : ℕ} (X : (⟨2, ![R, 4096]⟩ : Shape).Idx → EReal) (X' : (⟨2, ![R', 4096]⟩ : Shape).Idx → EReal)
    (w1 w2 : (⟨2, ![128, 128]⟩ : Shape).Idx → EReal) (z : Fin R) (z' : Fin R')
    (h : ∀ n : Fin 4096, X (ix2 z n) = X' (ix2 z' n)) (n : Fin 4096) :
    mixRows X w1 w2 (ix2 z n) = mixRows X' w1 w2 (ix2 z' n) := by
  have e : groups X z = groups X' z' := funext fun b => funext fun j => h _
  show stage (stage (groups X z) (mat w1)) (mat w2) _ _ = stage (stage (groups X' z') (mat w1)) (mat w2) _ _
  rw [e]
  rfl

/-- An 8 × 4096 × 4096 array with its two token axes folded into one of 32768. -/
def fold (x : (⟨3, ![8, 4096, 4096]⟩ : Shape).Idx → EReal) : (⟨2, ![32768, 4096]⟩ : Shape).Idx → EReal := fun i =>
  x (ix3 (⟨(i 0).val / 4096, by have := idx2_lt0 i; omega⟩ : Fin 8) (⟨(i 0).val % 4096, Nat.mod_lt _ (by decide)⟩ : Fin 4096)
    (⟨(i 1).val, idx2_lt1 i⟩ : Fin 4096))

/-- THE RESULT: both stages on every token of an 8 × 4096 × 4096 array, token `(a, s)` being row `4096 a + s` of the
    folded array. -/
def result (x : (⟨3, ![8, 4096, 4096]⟩ : Shape).Idx → EReal) (w1 w2 : (⟨2, ![128, 128]⟩ : Shape).Idx → EReal) :
    (⟨3, ![8, 4096, 4096]⟩ : Shape).Idx → EReal := fun i =>
  mixRows (fold x) w1 w2
    (ix2 (⟨(i 0).val * 4096 + (i 1).val, by
        have h0 : (i 0).val < 8 := (i 0).isLt
        have h1 : (i 1).val < 4096 := (i 1).isLt
        omega⟩ : Fin 32768)
      (⟨(i 2).val, (i 2).isLt⟩ : Fin 4096))

/-- Folding the token axes is the reshape to 32768 × 4096. -/
theorem shapeCast_fold (x : (⟨3, ![8, 4096, 4096]⟩ : Shape).Idx → EReal)
    (h : (⟨3, ![8, 4096, 4096]⟩ : Shape).ShapeCasts ⟨2, ![32768, 4096]⟩) :
    shapeCast ⟨2, ![32768, 4096]⟩ x h = fold x := by
  funext i
  refine shapeCast_apply x h i _ ?_
  rw [Shape.rowMajor_val_three, Shape.rowMajor_val_two]
  have h0 := idx2_lt0 i
  have h1 := idx2_lt1 i
  show ((i 0).val / 4096 * 4096 + (i 0).val % 4096) * 4096 + (i 1).val = (i 0).val * 4096 + (i 1).val
  omega

/-- Unfolding them again: the reshape of a 32768 × 4096 array back to 8 × 4096 × 4096 reads row `4096 a + s`. -/
theorem shapeCast_unfold (Y : (⟨2, ![32768, 4096]⟩ : Shape).Idx → EReal)
    (h : (⟨2, ![32768, 4096]⟩ : Shape).ShapeCasts ⟨3, ![8, 4096, 4096]⟩) (i : (⟨3, ![8, 4096, 4096]⟩ : Shape).Idx) :
    shapeCast ⟨3, ![8, 4096, 4096]⟩ Y h i
      = Y (ix2 (⟨(i 0).val * 4096 + (i 1).val, by
          have h0 : (i 0).val < 8 := (i 0).isLt
          have h1 : (i 1).val < 4096 := (i 1).isLt
          omega⟩ : Fin 32768) (⟨(i 2).val, (i 2).isLt⟩ : Fin 4096)) := by
  refine shapeCast_apply Y h i _ ?_
  rw [Shape.rowMajor_val_three, Shape.rowMajor_val_two]
  rfl

/-- So the whole kernel-side pipeline of reshapes around the row-wise result is `result`. -/
theorem unfold_mixRows_fold (x : (⟨3, ![8, 4096, 4096]⟩ : Shape).Idx → EReal) (w1 w2 : (⟨2, ![128, 128]⟩ : Shape).Idx → EReal)
    (h : (⟨3, ![8, 4096, 4096]⟩ : Shape).ShapeCasts ⟨2, ![32768, 4096]⟩)
    (h' : (⟨2, ![32768, 4096]⟩ : Shape).ShapeCasts ⟨3, ![8, 4096, 4096]⟩) :
    shapeCast ⟨3, ![8, 4096, 4096]⟩ (mixRows (shapeCast ⟨2, ![32768, 4096]⟩ x h) w1 w2) h' = result x w1 w2 := by
  funext i
  rw [shapeCast_unfold, shapeCast_fold]
  rfl

end Cert.Interleave

end
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.KernelStage.lean ====
/-
  The kernel's body on one block of 128 tokens. The block, 128 × 4096, is regrouped as 128 × 32 × 128 and flattened to
  4096 rows of 128, one row per (token, group); a matrix product with the weight, into a zero accumulator, gives each
  group's product; the rows are regrouped per token, each product's 128 entries are split 32 × 4, and the transposition
  that moves the group axis behind them, followed by merging the last two axes, is the interleave of the stage. That is
  done twice, and the result flattened back to 128 × 4096. Read at (token, column) every step names ONE entry of its
  operand, and the product is a sum over the contracted axis; a narrowing of the format is the identity on extended reals.
-/
import proofs.«105926_j28836410426083_1_alg».proof.Proof.Gen.KernelIdeal.Skeleton
import proofs.«105926_j28836410426083_1_alg».proof.Proof.Spec
import proofs.«105926_j28836410426083_1_alg».proof.Proof.LibRowOps
import Idealize.ShloMosaic.Lib.Pipeline.Value

noncomputable section

open scoped BigOperators

namespace Cert.KernelIdeal.Stage

open Cert.KernelIdeal Cert.KernelIdeal.Gen Idealize.ShloMosaic Idealize.ShloMosaic.ValueIdx Cert.Interleave

/-- One stage of the body, from the regrouped block to the regrouped block. -/
def kstage (Y : FVec Ideal S128x32x128 .f32) (w : FVec Ideal S128x128 .f32) : FVec Ideal S128x32x128 .f32 :=
  shapeCast S128x32x128
    (transpose S128x32x4x32 [0, 2, 3, 1]
      (shapeCast S128x32x32x4
        (shapeCast S128x32x128
          (matmul dot_S4096x128_S128x128_S4096x128_1_0_0_1_n_n none
            (truncf .bf16 (shapeCast S4096x128 Y shapeCasts_S128x32x128_S4096x128) bitsLt_bf16_f32)
            (truncf .bf16 w bitsLt_bf16_f32) (constant S4096x128 .f32 0x00000000#32))
          shapeCasts_S4096x128_S128x32x128)
        shapeCasts_S128x32x128_S128x32x32x4)
      transposes_S128x32x32x4_p0_2_3_1_S128x32x4x32)
    shapeCasts_S128x32x4x32_S128x32x128

/-- The body's stored value is the two stages between the regrouping and the flattening. -/
theorem pay_eq (v0 v2 : Vec Ideal S128x128 .f32) (v4 : Vec Ideal S128x4096 .f32) :
    k0_pay1 (F := Ideal) v0 v2 v4
      = shapeCast S128x4096
          (kstage (kstage (shapeCast S128x32x128 (shapeCast S128x4096 v4 shapeCasts_S128x4096_S128x4096)
            shapeCasts_S128x4096_S128x32x128) v0) v2)
          shapeCasts_S128x32x128_S128x4096 := rfl

/-- One stage of the body at (token `r`, group `b`, place `k`): the stage of the token's groups. -/
theorem kstage_apply (Y : FVec Ideal S128x32x128 .f32) (w : FVec Ideal S128x128 .f32) (r : Fin 128) (b : Fin 32) (k : Fin 128) :
    kstage Y w (ix3 r b k) = stage (fun b' j => Y (ix3 r b' j)) (mat w) b k := by
  have hr := r.isLt
  have hb := b.isLt
  have hk := k.isLt
  unfold kstage stage mat
  -- merging the last two axes: place k of group b is (k / 32, k % 32)
  refine (shapeCast_apply _ shapeCasts_S128x32x4x32_S128x32x128 (ix3 r b k)
    (ix4 r b (⟨k.val / 32, by omega⟩ : Fin 4) (⟨k.val % 32, by omega⟩ : Fin 32)) (by
      rw [Shape.rowMajor_val_four, Shape.rowMajor_val_three]
      show ((r.val * 32 + b.val) * 4 + k.val / 32) * 32 + k.val % 32 = (r.val * 32 + b.val) * 128 + k.val
      omega)).trans ?_
  -- the transposition: result axes (token, h, l, group) from operand axes (token, group, h, l)
  refine (transpose_apply [0, 2, 3, 1] _ transposes_S128x32x32x4_p0_2_3_1_S128x32x4x32
    (ix4 r b (⟨k.val / 32, by omega⟩ : Fin 4) (⟨k.val % 32, by omega⟩ : Fin 32))
    (ix4 r (⟨k.val % 32, by omega⟩ : Fin 32) b (⟨k.val / 32, by omega⟩ : Fin 4))
    (fun a => match a with
      | ⟨0, _⟩ => rfl
      | ⟨1, _⟩ => rfl
      | ⟨2, _⟩ => rfl
      | ⟨3, _⟩ => rfl)).trans ?_
  -- splitting a product's 128 entries 32 × 4: (h, l) is entry 4 h + l
  refine (shapeCast_apply _ shapeCasts_S128x32x128_S128x32x32x4
    (ix4 r (⟨k.val % 32, by omega⟩ : Fin 32) b (⟨k.val / 32, by omega⟩ : Fin 4))
    (ix3 r (⟨k.val % 32, by omega⟩ : Fin 32) (⟨b.val * 4 + k.val / 32, by omega⟩ : Fin 128)) (by
      rw [Shape.rowMajor_val_three, Shape.rowMajor_val_four]
      show (r.val * 32 + k.val % 32) * 128 + (b.val * 4 + k.val / 32) = ((r.val * 32 + k.val % 32) * 32 + b.val) * 4 + k.val / 32
      omega)).trans ?_
  -- regrouping the product's rows per token: (token, group) is row 32 token + group
  refine (shapeCast_apply _ shapeCasts_S4096x128_S128x32x128
    (ix3 r (⟨k.val % 32, by omega⟩ : Fin 32) (⟨b.val * 4 + k.val / 32, by omega⟩ : Fin 128))
    (ix2 (⟨r.val * 32 + k.val % 32, by omega⟩ : Fin 4096) (⟨b.val * 4 + k.val / 32, by omega⟩ : Fin 128)) (by
      rw [Shape.rowMajor_val_two, Shape.rowMajor_val_three]
      rfl)).trans ?_
  -- the product into the zero accumulator: a sum over the contracted axis
  refine (Cert.RowOps.matmul_row_apply dot_S4096x128_S128x128_S4096x128_1_0_0_1_n_n rfl rfl rfl rfl rfl rfl none _ _
    (⟨r.val * 32 + k.val % 32, by omega⟩ : Fin 4096) (⟨b.val * 4 + k.val / 32, by omega⟩ : Fin 128)).trans ?_
  refine Finset.sum_congr rfl fun j _ => ?_
  have hj := j.isLt
  -- the narrowings are the identity; the flattened block's row 32 token + group is the token's group
  show shapeCast S4096x128 Y shapeCasts_S128x32x128_S4096x128 (ix2 (⟨r.val * 32 + k.val % 32, by omega⟩ : Fin 4096) j)
      * w (ix2 j (⟨b.val * 4 + k.val / 32, by omega⟩ : Fin 128)) = _
  refine congrArg (· * w (ix2 j (⟨b.val * 4 + k.val / 32, by omega⟩ : Fin 128))) ?_
  exact shapeCast_apply Y shapeCasts_S128x32x128_S4096x128 _ (ix3 r (⟨k.val % 32, by omega⟩ : Fin 32) j) (by
    rw [Shape.rowMajor_val_three, Shape.rowMajor_val_two]
    rfl)

/-- THE BODY'S STORED VALUE is both stages on every row of the block, with the two weights. -/
theorem pay_mixRows (v0 v2 : Vec Ideal S128x128 .f32) (v4 : Vec Ideal S128x4096 .f32) :
    k0_pay1 (F := Ideal) v0 v2 v4 = mixRows v4 v0 v2 := by
  rw [pay_eq]
  funext i
  obtain ⟨r, n, rfl⟩ : ∃ (r : Fin 128) (n : Fin 4096), i = ix2 r n := ⟨i 0, i 1, eq_ix2 i⟩
  have hr := r.isLt
  have hn := n.isLt
  -- flattening the regrouped block: column n is place n % 128 of group n / 128
  refine (shapeCast_apply _ shapeCasts_S128x32x128_S128x4096 (ix2 r n)
    (ix3 r (⟨n.val / 128, by omega⟩ : Fin 32) (⟨n.val % 128, by omega⟩ : Fin 128)) (by
      rw [Shape.rowMajor_val_three, Shape.rowMajor_val_two]
      show (r.val * 32 + n.val / 128) * 128 + n.val % 128 = r.val * 4096 + n.val
      omega)).trans ?_
  rw [kstage_apply]
  show _ = stage (stage (groups v4 r) (mat v0)) (mat v2) _ _
  congr 1
  funext b' j
  rw [kstage_apply]
  congr 1
  funext b'' j'
  have hb := b''.isLt
  have hj := j'.isLt
  -- regrouping the block: place j' of group b'' is column 128 b'' + j'
  refine (shapeCast_apply _ shapeCasts_S128x4096_S128x32x128 (ix3 r b'' j')
    (ix2 r (⟨b''.val * 128 + j'.val, by omega⟩ : Fin 4096)) (by
      rw [Shape.rowMajor_val_two, Shape.rowMajor_val_three]
      show r.val * 4096 + (b''.val * 128 + j'.val) = (r.val * 32 + b''.val) * 128 + j'.val
      omega)).trans ?_
  rw [shapeCast_self]
  rfl

end Cert.KernelIdeal.Stage

end
-- ==== Proof.KernelValue.lean ====
/-
  From blocks to the array, and the reshapes around the call. The call runs on the token array folded to 32768 × 4096;
  grid point `t` is handed rows `128 t … 128 t + 127` of it and both weights whole, and writes the same rows of the
  output. Since a row of the result depends on that row of the input only, what point `t` writes is rows
  `128 t … 128 t + 127` of the row-wise result of the WHOLE folded array; the 256 blocks tile the output, so the output
  is that result. The folded array is the reshape of the argument, and the program's result the reshape of the output.
-/
import proofs.«105926_j28836410426083_1_alg».proof.Proof.Gen.KernelIdeal.Frame
import proofs.«105926_j28836410426083_1_alg».proof.Proof.KernelStage
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx Cert.Interleave
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the call finds, and each point's blocks -/

/-- The folded token array, and the two weights, as the call finds them. -/
abbrev xarr (c : Dev nD) : Vec Ideal S32768x4096 .f32 := V m c main_v0
abbrev w1arr (c : Dev nD) : Vec Ideal S128x128 .f32 := V m c main_arg1
abbrev w2arr (c : Dev nD) : Vec Ideal S128x128 .f32 := V m c main_arg2
/-- Point `t`'s block of each. -/
abbrev xblk (c : Dev nD) (t : Fin cfg0.N) : Vec Ideal S128x4096 .f32 := iblk m c 0 t
abbrev w1blk (c : Dev nD) (t : Fin cfg0.N) : Vec Ideal S128x128 .f32 := iblk m c 1 t
abbrev w2blk (c : Dev nD) (t : Fin cfg0.N) : Vec Ideal S128x128 .f32 := iblk m c 2 t

/-- The index maps over the grid: the token windows move one block of rows per point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of point `t`'s token block is row `128 t + r` of the folded array. -/
theorem xblk_apply (c : Dev nD) (t : Fin cfg0.N) (r : Fin 128) (n : Fin 4096) :
    xblk m c t (ix2 r n)
      = xarr m c (ix2 (⟨t.val * 128 + r.val, by have hN : cfg0.N = 256 := N_0; have := t.isLt; have := r.isLt; omega⟩ : Fin 32768) n) := by
  obtain ⟨e0, e1, -⟩ := idx_facts t
  unfold xblk xarr iblk
  rw [View.read_apply]
  show V m c main_v0 _ = V m c main_v0 _
  congr 1
  funext a
  apply Fin.ext
  match a with
  | ⟨0, _⟩ => show win0_0.index t (0 : Fin 2) * 128 + 1 * r.val = t.val * 128 + r.val; rw [e0]; omega
  | ⟨1, _⟩ => show win0_0.index t (1 : Fin 2) * 4096 + 1 * n.val = n.val; rw [e1]; omega

/-- Every point's block of the first weight is the whole weight. -/
theorem w1blk_eq (c : Dev nD) (t : Fin cfg0.N) : w1blk m c t = w1arr m c := by
  obtain ⟨-, -, e0, e1, -⟩ := idx_facts t
  funext x
  unfold w1blk w1arr iblk
  rw [View.read_apply]
  show V m c main_arg1 _ = V m c main_arg1 x
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- And of the second. -/
theorem w2blk_eq (c : Dev nD) (t : Fin cfg0.N) : w2blk m c t = w2arr m c := by
  obtain ⟨-, -, -, -, e0, e1, -⟩ := idx_facts t
  funext x
  unfold w2blk w2arr iblk
  rw [View.read_apply]
  show V m c main_arg2 _ = V m c main_arg2 x
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-! ## What a point writes back, and the output array -/

/-- WHAT POINT `t` WRITES BACK is its block of the row-wise result of the whole folded array. -/
theorem flushed_eq (c : Dev nD) (t : Fin cfg0.N) :
    (dats m 0 c).flushed 3 t
      = ((cfg0.win 3).blk t).view.read (Elt Ideal) (mixRows (xarr m c) (w1arr m c) (w2arr m c)) := by
  show (cfg0.win 3).cut (grid0.coords t) ((dats m 0 c).after 3 t) = _
  rw [after0_3]
  unfold out0_3
  rw [View.canon_unit_zero hz]
  simp only [View.ld_unit_zero (S := S128x4096) hz, View.ld_unit_zero (S := S128x128) hz]
  obtain ⟨-, -, -, -, -, -, e0, e1⟩ := idx_facts t
  funext j
  show k0_pay1 (F := Ideal) (w1blk m c t) (w2blk m c t) (xblk m c t) j
    = mixRows (xarr m c) (w1arr m c) (w2arr m c) (((cfg0.win 3).blk t).view.emb j)
  rw [Stage.pay_mixRows, w1blk_eq, w2blk_eq]
  obtain ⟨r, n, rfl⟩ : ∃ (r : Fin 128) (n : Fin 4096), j = ix2 r n := ⟨j 0, j 1, eq_ix2 j⟩
  have hemb : ((cfg0.win 3).blk t).view.emb (ix2 r n)
      = ix2 (⟨t.val * 128 + r.val, by have hN : cfg0.N = 256 := N_0; have := t.isLt; have := r.isLt; omega⟩ : Fin 32768) n := by
    funext a
    apply Fin.ext
    match a with
    | ⟨0, _⟩ => show win0_3.index t (0 : Fin 2) * 128 + 1 * r.val = t.val * 128 + r.val; rw [e0]; omega
    | ⟨1, _⟩ => show win0_3.index t (1 : Fin 2) * 4096 + 1 * n.val = n.val; rw [e1]; omega
  rw [hemb]
  exact mixRows_congr _ _ _ _ r _ (fun n' => xblk_apply m c t r n') n

/-- An index of the output is in point `t`'s block iff each coordinate is in the block's range on its axis. -/
theorem mem_blk (t : Fin cfg0.N) (i : S32768x4096.Idx) :
    i ∈ ((cfg0.win 3).blk t).view.set ↔ ∀ a : Fin 2, win0_3.index t a * S128x4096.size a ≤ (i a).val
      ∧ (i a).val < win0_3.index t a * S128x4096.size a + S128x4096.size a := by
  show i ∈ ((View.whole main_v1).slice (win0_3.rect t)).set ↔ _
  rw [View.set_slice_whole, Rect.mem_set_unit]
  exact Iff.rfl

/-- The 256 blocks cover the output: row `z` is in the block of point `z / 128`. -/
theorem cover (i : S32768x4096.Idx) :
    ∃ t : Fin cfg0.N, (cfg0.win 3).flush t = true ∧ i ∈ ((cfg0.win 3).blk t).view.set := by
  have hN : cfg0.N = 256 := N_0
  have h0 : (i 0).val < 32768 := (i 0).isLt
  have h1 : (i 1).val < 4096 := (i 1).isLt
  refine ⟨⟨(i 0).val / 128, by omega⟩, flush0_3 _, ?_⟩
  obtain ⟨-, -, -, -, -, -, e0, e1⟩ := idx_facts ⟨(i 0).val / 128, by omega⟩
  rw [mem_blk]
  intro a
  match a with
  | ⟨0, _⟩ =>
    show win0_3.index _ (0 : Fin 2) * 128 ≤ (i 0).val ∧ (i 0).val < win0_3.index _ (0 : Fin 2) * 128 + 128
    rw [e0]
    show (i 0).val / 128 * 128 ≤ (i 0).val ∧ (i 0).val < (i 0).val / 128 * 128 + 128
    omega
  | ⟨1, _⟩ =>
    show win0_3.index _ (1 : Fin 2) * 4096 ≤ (i 1).val ∧ (i 1).val < win0_3.index _ (1 : Fin 2) * 4096 + 4096
    rw [e1]
    omega

/-- THE OUTPUT ARRAY after the call: the row-wise result of the folded array. -/
theorem final (c : Dev nD) : (dats m 0 c).arrAt 3 cfg0.N = mixRows (xarr m c) (w1arr m c) (w2arr m c) :=
  (dats m 0 c).arrAt_eq_of_cover 3 _ (fun t _ => flushed_eq m c t) cover

/-! ## The reshapes around the call -/

/-- The folded array is the reshape of the token argument. -/
theorem xarr_eq (c : Dev nD) :
    xarr m c = shapeCast S32768x4096 (m ((c : Thread nD τ).loc main_arg0)) shapeCasts_S8x4096x4096_S32768x4096 := by
  show StableHlo.after hostOps0 (fun b => m (c, b)) (Proc.devRef .tc main_v0) = _
  after_results
  rfl

/-- THE PROGRAM'S RESULT: the reshape of the output array, which is both stages on every token. -/
theorem tail_eq (c : Dev nD) :
    Pipeline.afterTail₀ cfgs (dats m) 0 (V0 m) [hostOps1] c main_v2
      = result (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = mixRows (xarr m c) (w1arr m c) (w2arr m c)
    from (Pipeline.withArrays_arr spec0 launch0.win.arr_inj c _ _ 3).trans (final m c)]
  rw [xarr_eq, show w1arr m c = m ((c : Thread nD τ).loc main_arg1) from V_main_arg1 m c,
    show w2arr m c = m ((c : Thread nD τ).loc main_arg2) from V_main_arg2 m c]
  exact unfold_mixRows_fold _ _ _ _ _

/-! ## The run -/

/-- Every weakly fair execution of the idealized kernel's program terminates with its result at both stages on every
    token of the arguments, the arguments unchanged. -/
theorem run : θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Whole

end
-- ==== Proof.RefValue.lean ====
/-
  The reference, stage by stage. It keeps the tokens on one axis of 32768 and the features as 32 groups of 128; a stage
  is the product of every group with the weight (a sum over the contracted axis), the transposition of each token's
  32 × 128 table of products, and the reshape of the transposed table back to 32 rows of 128 — the interleave, by
  counting row-major places. Each of these steps read at an index names one entry of its operand; composing the index
  maps gives the stage of the specification, and the last reshape unfolds the token axis.
-/
import proofs.«105926_j28836410426083_1_alg».proof.Proof.Gen.ReferenceIdeal.Read
import proofs.«105926_j28836410426083_1_alg».proof.Proof.Spec

noncomputable section

open scoped BigOperators

namespace Cert.ReferenceIdeal.RefValue

open Cert.ReferenceIdeal Cert.ReferenceIdeal.Read Idealize.ShloMosaic Idealize.ShloMosaic.ValueIdx Cert.Interleave

/-! ## The index maps of one stage, at coordinates -/

/-- The reshape after the transposition: place `k` of row `b` of a token's table is entry `128 b + k` of the transposed
    table's row-major list, column `(128 b + k) / 32 = 4 b + k / 32` of the products, from group `k % 32`. -/
theorem reshape_idx (z : Fin 32768) (b : Fin 32) (k : Fin 128) :
    idx_main_v3 (ix3 z b k)
      = ix3 z (⟨b.val * 4 + k.val / 32, by have := b.isLt; have := k.isLt; omega⟩ : Fin 128)
          (⟨k.val % 32, Nat.mod_lt _ (by decide)⟩ : Fin 32) := by
  have hz := z.isLt
  have hb := b.isLt
  have hk := k.isLt
  funext a
  apply Fin.ext
  match a with
  | ⟨0, _⟩ => show ((z.val * 32 + b.val) * 128 + k.val) / 4096 = z.val; omega
  | ⟨1, _⟩ => show ((z.val * 32 + b.val) * 128 + k.val) / 32 % 128 = b.val * 4 + k.val / 32; omega
  | ⟨2, _⟩ => show ((z.val * 32 + b.val) * 128 + k.val) % 32 = k.val % 32; omega

/-- The transposition swaps the two coordinates of a token's table. -/
theorem transpose_idx (z : Fin 32768) (c : Fin 128) (d : Fin 32) : idx_main_v2 (ix3 z c d) = ix3 z d c := by
  funext a
  apply Fin.ext
  match a with
  | ⟨0, _⟩ => rfl
  | ⟨1, _⟩ => rfl
  | ⟨2, _⟩ => rfl

/-- The product's left factor at contraction position `j`: entry `j` of the same token's same group. -/
theorem lhs_idx (z : Fin 32768) (d : Fin 32) (c j : Fin 128) : lidx_main_v1 (ix3 z d c) j = ix3 z d j := by
  funext a
  apply Fin.ext
  match a with
  | ⟨0, _⟩ => rfl
  | ⟨1, _⟩ => rfl
  | ⟨2, _⟩ => rfl

/-- Its right factor: row `j` of the weight at the product's column. -/
theorem rhs_idx (z : Fin 32768) (d : Fin 32) (c j : Fin 128) : ridx_main_v1 (ix3 z d c) j = ix2 j c := by
  funext a
  apply Fin.ext
  match a with
  | ⟨0, _⟩ => rfl
  | ⟨1, _⟩ => rfl

/-- The first reshape: entry `j` of group `d` of token `z` is column `128 d + j` of token `(z / 4096, z % 4096)`. -/
theorem fold_idx (z : Fin 32768) (d : Fin 32) (j : Fin 128) :
    idx_main_v0 (ix3 z d j)
      = ix3 (⟨z.val / 4096, by have := z.isLt; omega⟩ : Fin 8) (⟨z.val % 4096, Nat.mod_lt _ (by decide)⟩ : Fin 4096)
          (⟨d.val * 128 + j.val, by have := d.isLt; have := j.isLt; omega⟩ : Fin 4096) := by
  have hz := z.isLt
  have hd := d.isLt
  have hj := j.isLt
  funext a
  apply Fin.ext
  match a with
  | ⟨0, _⟩ => show ((z.val * 32 + d.val) * 128 + j.val) / 16777216 = z.val / 4096; omega
  | ⟨1, _⟩ => show ((z.val * 32 + d.val) * 128 + j.val) / 4096 % 4096 = z.val % 4096; omega
  | ⟨2, _⟩ => show ((z.val * 32 + d.val) * 128 + j.val) % 4096 = d.val * 128 + j.val; omega

/-- The last reshape: column `n` of token `(a, s)` is place `n % 128` of group `n / 128` of token `4096 a + s`. -/
theorem unfold_idx (a : Fin 8) (s n : Fin 4096) :
    idx_main_v7 (ix3 a s n)
      = ix3 (⟨a.val * 4096 + s.val, by have := a.isLt; have := s.isLt; omega⟩ : Fin 32768)
          (⟨n.val / 128, by have := n.isLt; omega⟩ : Fin 32) (⟨n.val % 128, Nat.mod_lt _ (by decide)⟩ : Fin 128) := by
  have ha := a.isLt
  have hs := s.isLt
  have hn := n.isLt
  funext c
  apply Fin.ext
  match c with
  | ⟨0, _⟩ => show ((a.val * 4096 + s.val) * 4096 + n.val) / 4096 = a.val * 4096 + s.val; omega
  | ⟨1, _⟩ => show ((a.val * 4096 + s.val) * 4096 + n.val) / 128 % 32 = n.val / 128; omega
  | ⟨2, _⟩ => show ((a.val * 4096 + s.val) * 4096 + n.val) % 128 = n.val % 128; omega

/-! ## The two stages and the result -/

variable (x0 : (⟨S8x4096x4096, .f32⟩ : BufTy).Contents (Elt Ideal)) (x1 x2 : (⟨S128x128, .f32⟩ : BufTy).Contents (Elt Ideal))

/-- After the first stage: the stage of the token's groups with the first weight. -/
theorem stage1 (z : Fin 32768) (b : Fin 32) (k : Fin 128) :
    val_main_v3 (F := Ideal) x0 x1 (ix3 z b k) = stage (groups (fold x0) z) (mat x1) b k := by
  rw [val_main_v3_apply, reshape_idx, val_main_v2_apply, transpose_idx, val_main_v1_apply]
  unfold stage
  refine Finset.sum_congr rfl fun j _ => ?_
  rw [val_main_v0_apply, lhs_idx, rhs_idx, fold_idx]
  rfl

/-- After the second stage: the stage, with the second weight, of what the first left. -/
theorem stage2 (z : Fin 32768) (b : Fin 32) (k : Fin 128) :
    val_main_v6 (F := Ideal) x0 x1 x2 (ix3 z b k)
      = stage (fun b' j => val_main_v3 (F := Ideal) x0 x1 (ix3 z b' j)) (mat x2) b k := by
  rw [val_main_v6_apply]
  show val_main_v5 (F := Ideal) x0 x1 x2 (idx_main_v3 (ix3 z b k)) = _
  rw [reshape_idx, val_main_v5_apply]
  show val_main_v4 (F := Ideal) x0 x1 x2 (idx_main_v2 (ix3 z _ _)) = _
  rw [transpose_idx, val_main_v4_apply]
  unfold stage
  refine Finset.sum_congr rfl fun j _ => ?_
  show val_main_v3 (F := Ideal) x0 x1 (lidx_main_v1 (ix3 z _ _) j) * x2 (ridx_main_v1 (ix3 z _ _) j) = _
  rw [lhs_idx, rhs_idx]
  rfl

/-- THE REFERENCE'S RESULT is both stages on every token. -/
theorem ref_eq : val_main_v7 (F := Ideal) x0 x1 x2 = result x0 x1 x2 := by
  funext i
  obtain ⟨a, s, n, rfl⟩ : ∃ (a : Fin 8) (s n : Fin 4096), i = ix3 a s n := ⟨i 0, i 1, i 2, eq_ix3 i⟩
  rw [val_main_v7_apply, unfold_idx, stage2]
  show _ = stage (stage (groups (fold x0) _) (mat x1)) (mat x2) _ _
  congr 1
  funext b' j
  exact stage1 x0 x1 _ b' j

end Cert.ReferenceIdeal.RefValue

end
-- ==== Proof.lean ====
/-
  The certificate. Over the extended reals both programs send every token — 4096 features, 32 groups of 128 — through
  the same two stages: multiply each group by a 128 × 128 weight, then interleave the 32 products (entry `k` of output
  group `b` is entry `4 b + k / 32` of the product of group `k % 32`). The kernel does this on blocks of 128 tokens,
  as one matrix product of 4096 rows per stage followed by a split, a transposition and a merge of axes; the reference on
  all 32768 tokens at once, as a contraction followed by a transposition and a reshape. Both are the same sums, term for
  term and in the same order, so no law of arithmetic is used and the inputs' finiteness is never opened: the whole proof
  is counting positions. `Spec` states the stage and the result; `KernelStage` reads the kernel's body at an index;
  `KernelValue` goes from the blocks to the output array and through the reshapes around the call; `RefValue` reads
  the reference stage by stage. The narrowings to a 16-bit format in the kernel are the identity on extended reals.
-/
import proofs.«105926_j28836410426083_1_alg».proof.Defs
import proofs.«105926_j28836410426083_1_alg».proof.Proof.Gen.Kernel
import proofs.«105926_j28836410426083_1_alg».proof.Proof.Gen.Kernel.Frame
import proofs.«105926_j28836410426083_1_alg».proof.Proof.Gen.KernelIdeal
import proofs.«105926_j28836410426083_1_alg».proof.Proof.Gen.KernelIdeal.Frame
import proofs.«105926_j28836410426083_1_alg».proof.Proof.Gen.ReferenceIdeal
import proofs.«105926_j28836410426083_1_alg».proof.Proof.Gen.ReferenceIdeal.Run
import proofs.«105926_j28836410426083_1_alg».proof.Proof.Gen.ReferenceIdeal.Read
import proofs.«105926_j28836410426083_1_alg».proof.Proof.Gen.Pre_finite_inputs
import proofs.«105926_j28836410426083_1_alg».proof.Proof.KernelValue
import proofs.«105926_j28836410426083_1_alg».proof.Proof.RefValue

noncomputable section

namespace Cert.Proof

open Idealize.ShloMosaic Idealize.ShloMosaic.TcCoe Idealize.SL.Sem

/-- The kernel's program runs and keeps its arguments (the generated frame, at the word level). -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with their result at both stages on every token. -/
theorem algebraic : Cert.algebraic_KernelIdeal_ReferenceIdeal := by
  intro m ρ m' ρ' _ hagree
  refine ⟨fun c => Cert.Interleave.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
